-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x45 : Shape := ⟨2, ![2048, 45]⟩
abbrev S45x2048 : Shape := ⟨2, ![45, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x45 : S_.BroadcastsInDim S2048x45 (![] : Fin 0 → Fin S2048x45.rank)
  reducesTo_S2048x45_S_d0_1 : S2048x45.ReducesTo [0, 1] S_
  bcast_S_S45x2048 : S_.BroadcastsInDim S45x2048 (![] : Fin 0 → Fin S45x2048.rank)
  reducesTo_S45x2048_S_d0_1 : S45x2048.ReducesTo [0, 1] S_

variable [Facts]

def fn {F : FTy → Type} [FloatOps F] (main_arg0 : FVec F S16384x2048 .f32) (main_arg1 : FVec F S2048x45 .f32) (main_arg2 : FVec F S45x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x45 .f32 := Host.absf main_arg1
  let main_cst_0 : FVec F S_ .f32 := constant S_ .f32 0x7F800000#32
  let main_v5 : FVec F S2048x45 .f32 := broadcastInDim S2048x45 ![] bcast_S_S2048x45 main_cst_0
  let main_v6 : IVec S2048x45 1 := cmpf .olt main_v4 main_v5
  let main_c_1 : IVec S_ 1 := constantI S_ 1 1#1
  let main_v7 : IVec S_ 1 := (fun x v => Host.reduce IntOp.andi x v reducesTo_S2048x45_S_d0_1 h_S_) main_v6 main_c_1
  let main_v8 : IVec S_ 1 := andi main_v3 main_v7
  let main_v9 : FVec F S45x2048 .f32 := Host.absf main_arg2
  let main_cst_2 : FVec F S_ .f32 := constant S_ .f32 0x7F800000#32
  let main_v10 : FVec F S45x2048 .f32 := broadcastInDim S45x2048 ![] bcast_S_S45x2048 main_cst_2
  let main_v11 : IVec S45x2048 1 := cmpf .olt main_v9 main_v10
  let main_c_3 : IVec S_ 1 := constantI S_ 1 1#1
  let main_v12 : IVec S_ 1 := (fun x v => Host.reduce IntOp.andi x v reducesTo_S45x2048_S_d0_1 h_S_) main_v11 main_c_3
  let main_v13 : IVec S_ 1 := andi main_v8 main_v12
  main_v13
-- ==== Kernel.lean ====
abbrev S16384x2048 : Shape := ⟨2, ![16384, 2048]⟩
abbrev S2048x45 : Shape := ⟨2, ![2048, 45]⟩
abbrev S45x2048 : Shape := ⟨2, ![45, 2048]⟩
abbrev S_ : Shape := ⟨0, ![]⟩
abbrev S2048x128 : Shape := ⟨2, ![2048, 128]⟩
abbrev S1 : Shape := ⟨1, ![1]⟩
abbrev S128x2048 : Shape := ⟨2, ![128, 2048]⟩
abbrev S1024x2048 : Shape := ⟨2, ![1024, 2048]⟩
abbrev S1024x128 : Shape := ⟨2, ![1024, 128]⟩

abbrev nBuf : Space → Nat
  | .hbm => 16
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x45, .f32⟩
  | .hbm, ⟨2, _⟩ => ⟨S45x2048, .f32⟩
  | .hbm, ⟨3, _⟩ => ⟨S_, .bf16⟩
  | .hbm, ⟨4, _⟩ => ⟨S2048x128, .bf16⟩
  | .hbm, ⟨5, _⟩ => ⟨S2048x45, .bf16⟩
  | .hbm, ⟨6, _⟩ => ⟨S_, .i32⟩
  | .hbm, ⟨7, _⟩ => ⟨S1, .i32⟩
  | .hbm, ⟨8, _⟩ => ⟨S2048x128, .bf16⟩
  | .hbm, ⟨9, _⟩ => ⟨S_, .bf16⟩
  | .hbm, ⟨10, _⟩ => ⟨S128x2048, .bf16⟩
  | .hbm, ⟨11, _⟩ => ⟨S45x2048, .bf16⟩
  | .hbm, ⟨12, _⟩ => ⟨S_, .i32⟩
  | .hbm, ⟨13, _⟩ => ⟨S1, .i32⟩
  | .hbm, ⟨14, _⟩ => ⟨S128x2048, .bf16⟩
  | .hbm, ⟨15, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S128x2048, .bf16⟩
  | .local _ .vmem, ⟨4, _⟩ => ⟨S1024x2048, .f32⟩
  | .local _ .vmem, ⟨5, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_v6 : Ref sig .tc := ⟨.hbm, 13, rfl⟩
abbrev main_call0_v7 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x128 : S_.BroadcastsInDim S2048x128 (![] : Fin 0 → Fin S2048x128.rank)
  bitsLt_bf16_f32 : FTy.bits .bf16 < FTy.bits .f32
  bcast_S_S1 : S_.BroadcastsInDim S1 (![] : Fin 0 → Fin S1.rank)
  bcast_S_S128x2048 : S_.BroadcastsInDim S128x2048 (![] : Fin 0 → Fin S128x2048.rank)
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  scatter_S2048x128_S1_S2048x45_01_n_1_0_wf : ScatterDims.WF S2048x128 S1 S2048x45 [0, 1] [] [1] 0
  scatter_S128x2048_S1_S45x2048_01_n_0_0_wf : ScatterDims.WF S128x2048 S1 S45x2048 [0, 1] [] [0] 0
  dot_S1024x2048_S2048x128_S1024x128_1_0_0_1_n_n_wf : DotDims.WF S1024x2048 S2048x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .bf16 = 32 ∨ (Rect.block (s := S2048x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x2048.size a
  hwx0_2 : ∀ i : grid0.Coords, EltTy.bits .bf16 = 32 ∨ (Rect.block (s := S128x2048) S128x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x2048.size a
  hwx0_3 : ∀ i : grid0.Coords, EltTy.bits .f32 = 32 ∨ (Rect.block (s := S16384x2048) S1024x2048.size (cc0_transform_3 i) (hinb0_3 i)).WholeWords (EltTy.packing .f32)

variable [Facts₀]

def scatter_S2048x128_S1_S2048x45_01_n_1_0 : ScatterDims S2048x128 S1 S2048x45 where
  updateWindowDims := [0, 1]
  insertedWindowDims := []
  scatterDimsToOperandDims := [1]
  indexVectorDim := 0
  wf := scatter_S2048x128_S1_S2048x45_01_n_1_0_wf
def scatter_S128x2048_S1_S45x2048_01_n_0_0 : ScatterDims S128x2048 S1 S45x2048 where
  updateWindowDims := [0, 1]
  insertedWindowDims := []
  scatterDimsToOperandDims := [0]
  indexVectorDim := 0
  wf := scatter_S128x2048_S1_S45x2048_01_n_0_0_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S128x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x45 : Shape := ⟨2, ![2048, 45]⟩
abbrev S45x2048 : Shape := ⟨2, ![45, 2048]⟩
abbrev S16384x45 : Shape := ⟨2, ![16384, 45]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x45, .f32⟩
  | .hbm, ⟨2, _⟩ => ⟨S45x2048, .f32⟩
  | .hbm, ⟨3, _⟩ => ⟨S16384x45, .f32⟩
  | .hbm, ⟨4, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16384x2048_S2048x45_S16384x45_1_0_0_1_n_n_wf : DotDims.WF S16384x2048 S2048x45 S16384x45 [1] [0] [0] [1] [] []
  dot_S16384x45_S45x2048_S16384x2048_1_0_0_1_n_n_wf : DotDims.WF S16384x45 S45x2048 S16384x2048 [1] [0] [0] [1] [] []

variable [Facts₀]

def dot_S16384x2048_S2048x45_S16384x45_1_0_0_1_n_n : DotDims S16384x2048 S2048x45 S16384x45 where
  lhsContracting := [1]
  rhsContracting := [0]
  lhsNonContracting := [0]
  rhsNonContracting := [1]
  lhsBatch := []
  rhsBatch := []
  wf := dot_S16384x2048_S2048x45_S16384x45_1_0_0_1_n_n_wf
def dot_S16384x45_S45x2048_S16384x2048_1_0_0_1_n_n : DotDims S16384x45 S45x2048 S16384x2048 where
  lhsContracting := [1]
  rhsContracting := [0]
  lhsNonContracting := [0]
  rhsNonContracting := [1]
  lhsBatch := []
  rhsBatch := []
  wf := dot_S16384x45_S45x2048_S16384x2048_1_0_0_1_n_n_wf

class Facts : Prop extends Facts₀ where

variable [Facts]
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Payload.lean ====
/-
  WHAT THE BODY STORES, AT AN INDEX. The body multiplies its [1024, 2048] block of x by the whole [2048, 128] left
  factor, and the [1024, 128] product by the whole [128, 2048] right factor, each product accumulated from zero. On the
  extended reals a change of float format is the identity and recasting an array to its own shape changes nothing,
  so at (p, q) the stored value is
      ∑ k < 128, (∑ l < 2048, x (p, l) · w₁ (l, k)) · w₂ (k, q).
-/
import proofs.«114166_g24034636988908_cont_8to1_1257_7_alg».proof.Proof.Gen.KernelIdeal.Skeleton
import proofs.«114166_g24034636988908_cont_8to1_1257_7_alg».proof.Proof.LibPlainDot
import Idealize.ShloMosaic.Lib.Pipeline.Value

noncomputable section

namespace Cert.KernelIdeal.Pay

open Cert.KernelIdeal Cert.KernelIdeal.Gen Idealize.ShloMosaic Idealize.ShloMosaic.ValueIdx

/-! ## The two products' operand indices: rows from the left operand, columns from the right, one contracted axis -/

theorem lhs_first_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_first_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_first_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_first_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

theorem lhs_second_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
theorem lhs_second_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
theorem rhs_second_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q
theorem rhs_second_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-! ## The stored value -/

/-- The body's stored value at (p, q): the block of x times the left factor, times the right factor, as a double sum. -/
theorem pay_apply (x0 : Vec Ideal S1024x2048 .f32) (x1 : Vec Ideal S2048x128 .bf16) (x2 : Vec Ideal S128x2048 .bf16)
    (p : Fin 1024) (q : Fin 2048) :
    k0_pay1 (F := Ideal) x0 x1 x2 (ix2 p q)
      = ∑ k : Fin 128, (∑ l : Fin 2048, x0 (ix2 p l) * x1 (ix2 l k)) * x2 (ix2 k q) := by
  unfold k0_pay1
  refine (Cert.Lib.matmul_plain_apply (M := 1024) (K := 128) (N := 2048) (φ₁ := .bf16) (φ₂ := .bf16)
    dot_S1024x128_S128x2048_S1024x2048_1_0_0_1_n_n rfl rfl
    lhs_second_0 lhs_second_1 rhs_second_0 rhs_second_1 none _ _ p q).trans ?_
  refine Finset.sum_congr rfl fun k _ => ?_
  simp only [shapeCast_self]
  refine congrArg (· * x2 (ix2 k q)) ?_
  exact Cert.Lib.matmul_plain_apply (M := 1024) (K := 2048) (N := 128) (φ₁ := .bf16) (φ₂ := .bf16)
    dot_S1024x2048_S2048x128_S1024x128_1_0_0_1_n_n rfl rfl
    lhs_first_0 lhs_first_1 rhs_first_0 rhs_first_1 none (truncf .bf16 x0 bitsLt_bf16_f32) x1 p k

end Cert.KernelIdeal.Pay

end
-- ==== Proof.Spec.lean ====
/-
  THE LOW-RANK PROJECTION AS ONE FUNCTION OF ITS THREE ARRAYS, and the law that joins its two spellings.

  The projection of a [16384, 2048] array x through a [2048, 45] factor a and a [45, 2048] factor b is, at (p, q),
      ∑ k < 45, (∑ l < 2048, x (p, l) · a (l, k)) · b (k, q).
  One program contracts over 128 positions instead of 45, with both factors extended by zeros: a by zero columns
  45 … 127, b by zero rows 45 … 127. On the extended reals a product with zero is zero whatever the other factor
  is (an infinity included), so every term from position 45 on is (anything) · 0 = 0 and the longer sum is the
  shorter one. No finiteness of x, a or b is used.
-/
import Idealize.ShloMosaic.PureOps.Ideal
import Idealize.ShloMosaic.Lib.ValueIdx

noncomputable section

namespace Cert.LowRank

open Idealize.ShloMosaic Idealize.ShloMosaic.ValueIdx

/-- Position k of the short contraction among the 128 of the long one. -/
def lo (k : Fin 45) : Fin 128 := ⟨k.val, by omega⟩

/-- The left factor extended by zero columns: column k of a for k < 45, zero from column 45 on. -/
def padIn (a : (⟨2, ![2048, 45]⟩ : Shape).Idx → EReal) : (⟨2, ![2048, 128]⟩ : Shape).Idx → EReal :=
  fun i => if h : (i 1).val < 45 then a (ix2 (i 0) ⟨(i 1).val, h⟩) else 0

/-- The right factor extended by zero rows: row k of b for k < 45, zero from row 45 on. -/
def padOut (b : (⟨2, ![45, 2048]⟩ : Shape).Idx → EReal) : (⟨2, ![128, 2048]⟩ : Shape).Idx → EReal :=
  fun i => if h : (i 0).val < 45 then b (ix2 ⟨(i 0).val, h⟩ (i 1)) else 0

/-- The projection: (x · a) · b, entry by entry. -/
def proj (x : (⟨2, ![16384, 2048]⟩ : Shape).Idx → EReal) (a : (⟨2, ![2048, 45]⟩ : Shape).Idx → EReal)
    (b : (⟨2, ![45, 2048]⟩ : Shape).Idx → EReal) : (⟨2, ![16384, 2048]⟩ : Shape).Idx → EReal :=
  fun i => ∑ k : Fin 45, (∑ l : Fin 2048, x (ix2 (i 0) l) * a (ix2 l k)) * b (ix2 k (i 1))

theorem padIn_lo (a : (⟨2, ![2048, 45]⟩ : Shape).Idx → EReal) (l : Fin 2048) (k : Fin 45) :
    padIn a (ix2 l (lo k)) = a (ix2 l k) := by
  unfold padIn
  rw [dif_pos (show ((ix2 l (lo k) : (⟨2, ![2048, 128]⟩ : Shape).Idx) 1).val < 45 from k.isLt)]
  rfl

theorem padOut_lo (b : (⟨2, ![45, 2048]⟩ : Shape).Idx → EReal) (k : Fin 45) (q : Fin 2048) :
    padOut b (ix2 (lo k) q) = b (ix2 k q) := by
  unfold padOut
  rw [dif_pos (show ((ix2 (lo k) q : (⟨2, ![128, 2048]⟩ : Shape).Idx) 0).val < 45 from k.isLt)]
  rfl

theorem padOut_hi (b : (⟨2, ![45, 2048]⟩ : Shape).Idx → EReal) (k : Fin 128) (q : Fin 2048) (hk : 45 ≤ k.val) :
    padOut b (ix2 k q) = 0 := by
  unfold padOut
  rw [dif_neg (show ¬ ((ix2 k q : (⟨2, ![128, 2048]⟩ : Shape).Idx) 0).val < 45 from Nat.not_lt.2 hk)]

/-- A sum of 128 terms that vanish from position 45 on is the sum of its first 45. -/
theorem sum_lo (f : Fin 128 → EReal) (hf : ∀ k : Fin 128, 45 ≤ k.val → f k = 0) :
    ∑ k : Fin 128, f k = ∑ k : Fin 45, f (lo k) := by
  have h := Fin.sum_univ_add (M := EReal) (a := 45) (b := 83) f
  rw [h]
  have hz : ∑ i : Fin 83, f (Fin.natAdd 45 i) = 0 :=
    Finset.sum_eq_zero fun i _ => hf _ (by show 45 ≤ 45 + i.val; omega)
  rw [hz, add_zero]
  exact Finset.sum_congr rfl fun k _ => congrArg f (Fin.ext rfl)

/-- THE LAW: the contraction over 128 positions with both factors extended by zeros is the projection. -/
theorem proj_padded (x : (⟨2, ![16384, 2048]⟩ : Shape).Idx → EReal) (a : (⟨2, ![2048, 45]⟩ : Shape).Idx → EReal)
    (b : (⟨2, ![45, 2048]⟩ : Shape).Idx → EReal) (p : Fin 16384) (q : Fin 2048) :
    ∑ k : Fin 128, (∑ l : Fin 2048, x (ix2 p l) * padIn a (ix2 l k)) * padOut b (ix2 k q) = proj x a b (ix2 p q) := by
  rw [sum_lo _ fun k hk => by rw [padOut_hi b k q hk, mul_zero]]
  unfold proj
  refine Finset.sum_congr rfl fun k _ => ?_
  rw [padOut_lo]
  refine congrArg (· * b (ix2 k q)) (Finset.sum_congr rfl fun l _ => ?_)
  rw [padIn_lo]

end Cert.LowRank

end
-- ==== Proof.Point.lean ====
/-
  ONE GRID POINT'S STORED VALUE IS THE PROJECTION. Suppose the point's block of x is x read at the rows the output
  block's index names (and all 2048 columns), and its two factor blocks are the whole zero-extended factors. Then what
  the body stores at a block index y is, by the stored double sum over 128 positions and the law that drops the zero
  positions, the projection (x · a) · b at the array index y names.
-/
import proofs.«114166_g24034636988908_cont_8to1_1257_7_alg».proof.Proof.Payload
import proofs.«114166_g24034636988908_cont_8to1_1257_7_alg».proof.Proof.Spec

noncomputable section

namespace Cert.KernelIdeal.Pay

open Cert.KernelIdeal Cert.KernelIdeal.Gen Idealize.ShloMosaic Idealize.ShloMosaic.ValueIdx

/-- At explicit coordinates: block row p is array row r of x, the factor blocks are the extended factors. -/
theorem point_value_at (X : S16384x2048.Idx → EReal) (A : S2048x45.Idx → EReal) (B : S45x2048.Idx → EReal)
    (x0 : Vec Ideal S1024x2048 .f32) (x1 : Vec Ideal S2048x128 .bf16) (x2 : Vec Ideal S128x2048 .bf16)
    (p : Fin 1024) (q : Fin 2048) (r : Fin 16384)
    (h0 : ∀ l : Fin 2048, x0 (ix2 p l) = X (ix2 r l))
    (h1 : x1 = Cert.LowRank.padIn A) (h2 : x2 = Cert.LowRank.padOut B) :
    k0_pay1 (F := Ideal) x0 x1 x2 (ix2 p q) = Cert.LowRank.proj X A B (ix2 r q) := by
  subst h1 h2
  refine (pay_apply x0 _ _ p q).trans (Eq.trans ?_ (Cert.LowRank.proj_padded X A B r q))
  refine Finset.sum_congr rfl fun k _ => congrArg (· * Cert.LowRank.padOut B (ix2 k q)) (Finset.sum_congr rfl fun l _ => ?_)
  rw [h0]

/-- `e` sends a block index to the array index it names: same column, rows as the block of x is read at. -/
theorem point_value (X : S16384x2048.Idx → EReal) (A : S2048x45.Idx → EReal) (B : S45x2048.Idx → EReal)
    (x0 : Vec Ideal S1024x2048 .f32) (x1 : Vec Ideal S2048x128 .bf16) (x2 : Vec Ideal S128x2048 .bf16)
    (e : S1024x2048.Idx → S16384x2048.Idx)
    (h0 : ∀ (y : S1024x2048.Idx) (l : Fin 2048), x0 (ix2 (y 0) l) = X (ix2 (e y 0) l))
    (he : ∀ y : S1024x2048.Idx, (e y 1).val = (y 1).val)
    (h1 : x1 = Cert.LowRank.padIn A) (h2 : x2 = Cert.LowRank.padOut B) (y : S1024x2048.Idx) :
    k0_pay1 (F := Ideal) x0 x1 x2 y = Cert.LowRank.proj X A B (e y) :=
  have hy : y = ix2 (y 0 : Fin 1024) (y 1 : Fin 2048) := eq_ix2 y
  have hey : e y = ix2 (e y 0 : Fin 16384) (y 1 : Fin 2048) :=
    (eq_ix2 (e y)).trans (congrArg (ix2 (e y 0 : Fin 16384)) (Fin.ext (he y)))
  ((congrArg (k0_pay1 (F := Ideal) x0 x1 x2) hy).trans
    (point_value_at X A B x0 x1 x2 (y 0) (y 1) (e y 0) (h0 y) h1 h2)).trans (congrArg (Cert.LowRank.proj X A B) hey.symm)

end Cert.KernelIdeal.Pay

end
-- ==== Proof.LibScatterSet.lean ====
/-
  A SCATTER WHOSE BODY KEEPS THE UPDATE, READ AT AN INDEX. A scatter walks the update positions in row-major order and, for each one
  whose result index lies inside the operand, replaces the element there by the body applied to that element and the update; an update
  landing outside is dropped. Whatever the body is, at a result index one of two things holds after the walk: no update position lands
  there and the element is the operand's, or some update position lands there and the element is the body applied to something and that
  position's update. When the body returns its second argument (a scatter that SETS), the second case says the element IS the update of
  a position that lands there: which one the order decides, that it is one of them no order changes. First the walk over any list of
  positions, by induction on the list; then the scatter itself. At any shapes, any scatter dimension numbers, any index width.
-/
import Idealize.ShloMosaic.PureOps.ShapeOps

namespace Cert.LibScatterSet

open Idealize.ShloMosaic

variable {α : Type} {s si u : Shape} {w : Nat}

/-- The scatter's left fold over ANY list of update positions, with any body `f`: at a result index `i`, either no position of the
    list lands on `i` and the element is the starting one, or a position of the list lands on `i` and the element is `f` of something
    and that position's update. -/
theorem scatter_foldl_cases (d : ScatterDims s si u) (f : α → α → α) (idx : IVec si w) (upd : u.Idx → α) (i : s.Idx)
    (l : List (Fin u.numel)) (x : s.Idx → α) :
    ((∀ n ∈ l, d.resultIdx? (u.rowMajor.symm n) idx ≠ some i) ∧
      (l.foldl (fun r n =>
        match d.resultIdx? (u.rowMajor.symm n) idx with
        | some i0 => fun i' => if i' = i0 then f (r i0) (upd (u.rowMajor.symm n)) else r i'
        | none => r) x) i = x i) ∨
    (∃ n ∈ l, d.resultIdx? (u.rowMajor.symm n) idx = some i ∧ ∃ a : α,
      (l.foldl (fun r n =>
        match d.resultIdx? (u.rowMajor.symm n) idx with
        | some i0 => fun i' => if i' = i0 then f (r i0) (upd (u.rowMajor.symm n)) else r i'
        | none => r) x) i = f a (upd (u.rowMajor.symm n))) := by
  induction l generalizing x with
  | nil => exact Or.inl ⟨fun n hn => absurd hn (List.not_mem_nil), rfl⟩
  | cons n l ih =>
    rw [List.foldl_cons]
    -- the first step's value at `i`: changed exactly when position `n` lands on `i`
    have hx' : (match d.resultIdx? (u.rowMajor.symm n) idx with
        | some i0 => fun i' => if i' = i0 then f (x i0) (upd (u.rowMajor.symm n)) else x i'
        | none => x) i
        = if d.resultIdx? (u.rowMajor.symm n) idx = some i then f (x i) (upd (u.rowMajor.symm n)) else x i := by
      cases hr : d.resultIdx? (u.rowMajor.symm n) idx with
      | none => simp
      | some i0 =>
        by_cases h : i = i0
        · subst h; simp
        · simp [h, Ne.symm h]
    rcases ih (match d.resultIdx? (u.rowMajor.symm n) idx with
        | some i0 => fun i' => if i' = i0 then f (x i0) (upd (u.rowMajor.symm n)) else x i'
        | none => x) with ⟨hno, hval⟩ | ⟨n', hn', hland, a, hval⟩
    · rw [hx'] at hval
      by_cases hl : d.resultIdx? (u.rowMajor.symm n) idx = some i
      · rw [if_pos hl] at hval
        exact Or.inr ⟨n, List.mem_cons.2 (Or.inl rfl), hl, x i, hval⟩
      · rw [if_neg hl] at hval
        refine Or.inl ⟨fun n'' hn'' => ?_, hval⟩
        rcases List.mem_cons.1 hn'' with rfl | h'
        · exact hl
        · exact hno n'' h'
    · exact Or.inr ⟨n', List.mem_cons.2 (Or.inr hn'), hland, a, hval⟩

/-- A scatter that SETS (its body returns the update), read at a result index `i`: either no update index lands on `i` and the element
    is the operand's, or the element is the update at an index that lands on `i`. -/
theorem scatter_set_apply (d : ScatterDims s si u) (x : s.Idx → α) (idx : IVec si w) (upd : u.Idx → α) (i : s.Idx) :
    ((∀ j, d.resultIdx? j idx ≠ some i) ∧ Host.scatter d (fun _ b => b) x idx upd i = x i) ∨
    (∃ j, d.resultIdx? j idx = some i ∧ Host.scatter d (fun _ b => b) x idx upd i = upd j) := by
  unfold Host.scatter
  rcases scatter_foldl_cases d (fun _ b => b) idx upd i (List.finRange u.numel) x with ⟨hno, hval⟩ | ⟨n, _, hland, _, hval⟩
  · refine Or.inl ⟨fun j => ?_, hval⟩
    have := hno (u.rowMajor j) (List.mem_finRange _)
    rwa [Equiv.symm_apply_apply] at this
  · exact Or.inr ⟨u.rowMajor.symm n, hland, hval⟩

end Cert.LibScatterSet
-- ==== Proof.ScatterPad.lean ====
/-
  THE TWO ZERO-EXTENDED FACTORS, READ AT AN INDEX. Each factor is made by setting a smaller array into an array of a
  larger shape at the start index 0: the [2048, 45] factor into [2048, 128] along the columns, the [45, 2048] factor into
  [128, 2048] along the rows. The update at position j lands at the operand position with the same coordinates as j
  (start 0 plus the window coordinate on each axis), always inside the operand; so two positions that land on one index
  are equal, the index (l, k) is landed on exactly when its coordinate on the extended axis is below 45, and there the
  result holds the update at (l, k); elsewhere it holds the operand.
-/
import proofs.«114166_g24034636988908_cont_8to1_1257_7_alg».proof.KernelIdeal
import proofs.«114166_g24034636988908_cont_8to1_1257_7_alg».proof.Proof.LibScatterSet
import Idealize.ShloMosaic.Lib.ValueIdx

noncomputable section

namespace Cert.KernelIdeal.Pad

open Cert.KernelIdeal Idealize.ShloMosaic Idealize.ShloMosaic.ValueIdx

variable [Cert.KernelIdeal.Facts₀]

/-- The record of the set along the columns, and of the set along the rows. -/
abbrev dIn := scatter_S2048x128_S1_S2048x45_01_n_1_0
abbrev dOut := scatter_S128x2048_S1_S45x2048_01_n_0_0

/-! ## Along the columns -/

theorem start_in (j : S2048x45.Idx) (idx : IVec S1 32) (h0 : ∀ n, idx n = 0#32) (a : Fin 2) : dIn.start j idx a = 0 := by
  unfold ScatterDims.start
  split
  · rw [h0]; rfl
  · rfl

theorem window_in0 (j : S2048x45.Idx) : dIn.window j (0 : Fin 2) = (j 0).val := rfl
theorem window_in1 (j : S2048x45.Idx) : dIn.window j (1 : Fin 2) = (j 1).val := rfl

/-- Where update position j lands: at its own coordinates. -/
theorem land_in (j : S2048x45.Idx) (idx : IVec S1 32) (h0 : ∀ n, idx n = 0#32) :
    dIn.resultIdx? j idx = some (ix2 (j 0) (⟨(j 1).val, by have : (j 1).val < 45 := (j 1).isLt; omega⟩ : Fin 128)) := by
  have hj0 : (j 0).val < 2048 := (j 0).isLt
  have hj1 : (j 1).val < 45 := (j 1).isLt
  have s0 : dIn.start j idx (0 : Fin 2) + (dIn.window j (0 : Fin 2) : Int) = ((j 0).val : Int) := by
    rw [start_in j idx h0, window_in0, zero_add]
  have s1 : dIn.start j idx (1 : Fin 2) + (dIn.window j (1 : Fin 2) : Int) = ((j 1).val : Int) := by
    rw [start_in j idx h0, window_in1, zero_add]
  have hall : ∀ a : Fin 2, 0 ≤ dIn.start j idx a + (dIn.window j a : Int)
      ∧ dIn.start j idx a + (dIn.window j a : Int) < S2048x128.size a :=
    Fin.forall_fin_two.2
      ⟨⟨by rw [s0]; omega, by rw [s0]; show ((j 0).val : Int) < ((2048 : Nat) : Int); omega⟩,
       ⟨by rw [s1]; omega, by rw [s1]; show ((j 1).val : Int) < ((128 : Nat) : Int); omega⟩⟩
  unfold ScatterDims.resultIdx?
  rw [dif_pos hall]
  refine congrArg some (funext fun a => Fin.ext ?_)
  match a with
  | ⟨0, _⟩ => show (dIn.start j idx (0 : Fin 2) + (dIn.window j (0 : Fin 2) : Int)).toNat = (j 0).val; rw [s0]; exact Int.toNat_natCast _
  | ⟨1, _⟩ => show (dIn.start j idx (1 : Fin 2) + (dIn.window j (1 : Fin 2) : Int)).toNat = (j 1).val; rw [s1]; exact Int.toNat_natCast _

/-- The [2048, 45] array set into a [2048, 128] one at start 0, read at an index: the update where the column is below 45,
    the operand elsewhere. -/
theorem set_in_apply {α : Type} (x : S2048x128.Idx → α) (idx : IVec S1 32) (h0 : ∀ n, idx n = 0#32) (upd : S2048x45.Idx → α)
    (i : S2048x128.Idx) :
    Host.scatter dIn (fun _ b => b) x idx upd i
      = if h : (i 1).val < 45 then upd (ix2 (i 0) (⟨(i 1).val, h⟩ : Fin 45)) else x i := by
  rcases Cert.LibScatterSet.scatter_set_apply dIn x idx upd i with ⟨hno, hval⟩ | ⟨j, hland, hval⟩
  · by_cases h : (i 1).val < 45
    · refine absurd ?_ (hno (ix2 (i 0) (⟨(i 1).val, h⟩ : Fin 45)))
      rw [land_in _ idx h0]
      exact congrArg some (eq_ix2 i).symm
    · rw [dif_neg h]; exact hval
  · rw [land_in j idx h0] at hland
    have hi : ix2 (j 0) (⟨(j 1).val, by have : (j 1).val < 45 := (j 1).isLt; omega⟩ : Fin 128) = i := Option.some.inj hland
    subst hi
    have hj1 : (j 1).val < 45 := (j 1).isLt
    rw [dif_pos (show ((ix2 (j 0) (⟨(j 1).val, by omega⟩ : Fin 128) : S2048x128.Idx) 1).val < 45 from hj1), hval]
    exact congrArg upd (eq_ix2 j)

/-! ## Along the rows -/

theorem start_out (j : S45x2048.Idx) (idx : IVec S1 32) (h0 : ∀ n, idx n = 0#32) (a : Fin 2) : dOut.start j idx a = 0 := by
  unfold ScatterDims.start
  split
  · rw [h0]; rfl
  · rfl

theorem window_out0 (j : S45x2048.Idx) : dOut.window j (0 : Fin 2) = (j 0).val := rfl
theorem window_out1 (j : S45x2048.Idx) : dOut.window j (1 : Fin 2) = (j 1).val := rfl

/-- Where update position j lands: at its own coordinates. -/
theorem land_out (j : S45x2048.Idx) (idx : IVec S1 32) (h0 : ∀ n, idx n = 0#32) :
    dOut.resultIdx? j idx = some (ix2 (⟨(j 0).val, by have : (j 0).val < 45 := (j 0).isLt; omega⟩ : Fin 128) (j 1)) := by
  have hj0 : (j 0).val < 45 := (j 0).isLt
  have hj1 : (j 1).val < 2048 := (j 1).isLt
  have s0 : dOut.start j idx (0 : Fin 2) + (dOut.window j (0 : Fin 2) : Int) = ((j 0).val : Int) := by
    rw [start_out j idx h0, window_out0, zero_add]
  have s1 : dOut.start j idx (1 : Fin 2) + (dOut.window j (1 : Fin 2) : Int) = ((j 1).val : Int) := by
    rw [start_out j idx h0, window_out1, zero_add]
  have hall : ∀ a : Fin 2, 0 ≤ dOut.start j idx a + (dOut.window j a : Int)
      ∧ dOut.start j idx a + (dOut.window j a : Int) < S128x2048.size a :=
    Fin.forall_fin_two.2
      ⟨⟨by rw [s0]; omega, by rw [s0]; show ((j 0).val : Int) < ((128 : Nat) : Int); omega⟩,
       ⟨by rw [s1]; omega, by rw [s1]; show ((j 1).val : Int) < ((2048 : Nat) : Int); omega⟩⟩
  unfold ScatterDims.resultIdx?
  rw [dif_pos hall]
  refine congrArg some (funext fun a => Fin.ext ?_)
  match a with
  | ⟨0, _⟩ => show (dOut.start j idx (0 : Fin 2) + (dOut.window j (0 : Fin 2) : Int)).toNat = (j 0).val; rw [s0]; exact Int.toNat_natCast _
  | ⟨1, _⟩ => show (dOut.start j idx (1 : Fin 2) + (dOut.window j (1 : Fin 2) : Int)).toNat = (j 1).val; rw [s1]; exact Int.toNat_natCast _

/-- The [45, 2048] array set into a [128, 2048] one at start 0, read at an index: the update where the row is below 45,
    the operand elsewhere. -/
theorem set_out_apply {α : Type} (x : S128x2048.Idx → α) (idx : IVec S1 32) (h0 : ∀ n, idx n = 0#32) (upd : S45x2048.Idx → α)
    (i : S128x2048.Idx) :
    Host.scatter dOut (fun _ b => b) x idx upd i
      = if h : (i 0).val < 45 then upd (ix2 (⟨(i 0).val, h⟩ : Fin 45) (i 1)) else x i := by
  rcases Cert.LibScatterSet.scatter_set_apply dOut x idx upd i with ⟨hno, hval⟩ | ⟨j, hland, hval⟩
  · by_cases h : (i 0).val < 45
    · refine absurd ?_ (hno (ix2 (⟨(i 0).val, h⟩ : Fin 45) (i 1)))
      rw [land_out _ idx h0]
      exact congrArg some (eq_ix2 i).symm
    · rw [dif_neg h]; exact hval
  · rw [land_out j idx h0] at hland
    have hi : ix2 (⟨(j 0).val, by have : (j 0).val < 45 := (j 0).isLt; omega⟩ : Fin 128) (j 1) = i := Option.some.inj hland
    subst hi
    have hj0 : (j 0).val < 45 := (j 0).isLt
    rw [dif_pos (show ((ix2 (⟨(j 0).val, by omega⟩ : Fin 128) (j 1) : S128x2048.Idx) 0).val < 45 from hj0), hval]
    exact congrArg upd (eq_ix2 j)

end Cert.KernelIdeal.Pad

end
-- ==== Proof.LibTypedRef.lean ====
/-
  A TYPED REFERENCE'S TRANSPORTS ARE THE IDENTITY. A typed reference pairs a buffer with the tensor type its contents
  have and a proof that the buffer's own type is that type; contents are carried between the two types along that proof.
  Destructuring the reference and substituting the proof shows: carrying there and back is the identity, and either
  transport alone is heterogeneously equal to its argument (so, where the two types are definitionally one, equal to it).
  At any signature, any tensor type, any values.
-/
import Idealize.ShloMosaic.Lib.StableHlo

namespace Cert.LibTypedRef

open Idealize.ShloMosaic Idealize.ShloMosaic.StableHlo

variable {sg : RefSig} {T : BufTy} {Val : EltTy → Type}

/-- Carried to the buffer's type and back: unchanged. -/
theorem ofBuf_toBuf (x : TRef sg T) (v : T.Contents Val) : x.ofBuf (x.toBuf v) = v := by
  obtain ⟨r, h, h1, h2⟩ := x
  subst h
  rfl

/-- Carried back from the buffer's type and there again: unchanged. -/
theorem toBuf_ofBuf (x : TRef sg T) (v : x.ref.ty.Contents Val) : x.toBuf (x.ofBuf v) = v := by
  obtain ⟨r, h, h1, h2⟩ := x
  subst h
  rfl

/-- Contents carried to the buffer's type are the contents. -/
theorem toBuf_heq (x : TRef sg T) (v : T.Contents Val) : HEq (x.toBuf v) v := by
  obtain ⟨r, h, h1, h2⟩ := x
  subst h
  rfl

/-- Contents carried from the buffer's type are the contents. -/
theorem ofBuf_heq (x : TRef sg T) (v : x.ref.ty.Contents Val) : HEq (x.ofBuf v) v := by
  obtain ⟨r, h, h1, h2⟩ := x
  subst h
  rfl

end Cert.LibTypedRef
-- ==== Proof.HostSide.lean ====
/-
  WHAT THE REGION FINDS IN ITS TWO FACTOR ARRAYS. Before the region the program makes each factor: a zero array of the
  extended shape, the argument changed to the narrower float format (the identity on the extended reals), and the
  argument set into the zero array at start index 0. Read at an index, the left factor is the argument's column k for
  k < 45 and zero from column 45 on; the right factor the argument's row k for k < 45 and zero from row 45 on.
-/
import proofs.«114166_g24034636988908_cont_8to1_1257_7_alg».proof.Proof.Gen.KernelIdeal.Frame
import proofs.«114166_g24034636988908_cont_8to1_1257_7_alg».proof.Proof.ScatterPad
import proofs.«114166_g24034636988908_cont_8to1_1257_7_alg».proof.Proof.Spec
import proofs.«114166_g24034636988908_cont_8to1_1257_7_alg».proof.Proof.LibTypedRef
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

/-! ## The two arrays as terms of the arguments, at any float instance

The operations before the region are read one result at a time; what is left are the transports of the typed
references, which are the identity. The scatter's own fold is never opened. -/

section Terms

attribute [local irreducible] Host.scatter

variable {F : FTy → Type} [FloatOps F]
variable (m : (ℓ : Loc nD τ sig) → Buf (Elt F) ℓ)

/-- The left factor as the region finds it: the set of the argument into the zero array. -/
theorem left_term (c : Dev nD) :
    (V m c main_call0_v3 : S2048x128.Idx → F .bf16)
      = Host.scatter scatter_S2048x128_S1_S2048x45_01_n_1_0 (fun _ b => b)
          (broadcastInDim S2048x128 ![] bcast_S_S2048x128 (constant (F := F) S_ .bf16 0x0000#16))
          (broadcastInDim S1 ![] bcast_S_S1 (constantI S_ 32 0#32))
          (truncf .bf16 (m ((c : Thread nD τ).loc main_arg1)) bitsLt_bf16_f32) := by
  show StableHlo.after hostOps0 (fun b => m (c, b)) (Proc.devRef .tc main_call0_v3) = _
  after_results
  simp only [Cert.LibTypedRef.ofBuf_toBuf]
  refine (eq_of_heq (Cert.LibTypedRef.toBuf_heq _ _)).trans ?_
  exact congrArg (fun u => Host.scatter scatter_S2048x128_S1_S2048x45_01_n_1_0 (fun _ b => b)
          (broadcastInDim S2048x128 ![] bcast_S_S2048x128 (constant (F := F) S_ .bf16 0x0000#16))
          (broadcastInDim S1 ![] bcast_S_S1 (constantI S_ 32 0#32))
          (truncf .bf16 u bitsLt_bf16_f32)) (eq_of_heq (Cert.LibTypedRef.ofBuf_heq _ _))

/-- The right factor as the region finds it. -/
theorem right_term (c : Dev nD) :
    (V m c main_call0_v7 : S128x2048.Idx → F .bf16)
      = Host.scatter scatter_S128x2048_S1_S45x2048_01_n_0_0 (fun _ b => b)
          (broadcastInDim S128x2048 ![] bcast_S_S128x2048 (constant (F := F) S_ .bf16 0x0000#16))
          (broadcastInDim S1 ![] bcast_S_S1 (constantI S_ 32 0#32))
          (truncf .bf16 (m ((c : Thread nD τ).loc main_arg2)) bitsLt_bf16_f32) := by
  show StableHlo.after hostOps0 (fun b => m (c, b)) (Proc.devRef .tc main_call0_v7) = _
  after_results
  simp only [Cert.LibTypedRef.ofBuf_toBuf]
  refine (eq_of_heq (Cert.LibTypedRef.toBuf_heq _ _)).trans ?_
  exact congrArg (fun u => Host.scatter scatter_S128x2048_S1_S45x2048_01_n_0_0 (fun _ b => b)
          (broadcastInDim S128x2048 ![] bcast_S_S128x2048 (constant (F := F) S_ .bf16 0x0000#16))
          (broadcastInDim S1 ![] bcast_S_S1 (constantI S_ 32 0#32))
          (truncf .bf16 u bitsLt_bf16_f32)) (eq_of_heq (Cert.LibTypedRef.ofBuf_heq _ _))

end Terms

/-! ## Read at an index, on the extended reals -/

variable (m : (ℓ : Loc nD τ sig) → Buf (Elt Ideal) ℓ)

/-- The zero of the narrow float format is the real zero. -/
theorem zero_bf16 : Ideal.ofBits .bf16 0x0000#16 = 0 := by simp [Ideal.ofBits, Ideal.ieee]

/-- The left factor, index by index: the argument extended by zero columns. -/
theorem left_eq (c : Dev nD) :
    (V m c main_call0_v3 : S2048x128.Idx → EReal) = Cert.LowRank.padIn (m ((c : Thread nD τ).loc main_arg1)) := by
  rw [left_term (F := Ideal) m c]
  funext i
  refine (Cert.KernelIdeal.Pad.set_in_apply _ (broadcastInDim S1 ![] bcast_S_S1 (constantI S_ 32 0#32)) (fun _ => rfl) _ i).trans ?_
  unfold Cert.LowRank.padIn
  split
  · rfl
  · exact zero_bf16

/-- The right factor, index by index: the argument extended by zero rows. -/
theorem right_eq (c : Dev nD) :
    (V m c main_call0_v7 : S128x2048.Idx → EReal) = Cert.LowRank.padOut (m ((c : Thread nD τ).loc main_arg2)) := by
  rw [right_term (F := Ideal) m c]
  funext i
  refine (Cert.KernelIdeal.Pad.set_out_apply _ (broadcastInDim S1 ![] bcast_S_S1 (constantI S_ 32 0#32)) (fun _ => rfl) _ i).trans ?_
  unfold Cert.LowRank.padOut
  split
  · rfl
  · exact zero_bf16

end Cert.KernelIdeal.HostSide

end
-- ==== Proof.Blocks.lean ====
/-
  FROM THE BLOCKS TO THE ARRAY. The grid has 16 points; point t reads rows 1024 t … 1024 t + 1023 of x (all columns) and
  the whole of each factor array, and writes rows 1024 t … 1024 t + 1023 of the result. So what point t writes back is
  block t of the projection (x · a) · b of the three arguments, the 16 blocks cover every row of the result, and the
  result array ends holding the projection.
-/
import proofs.«114166_g24034636988908_cont_8to1_1257_7_alg».proof.Proof.Gen.KernelIdeal.Value
import proofs.«114166_g24034636988908_cont_8to1_1257_7_alg».proof.Proof.Point
import proofs.«114166_g24034636988908_cont_8to1_1257_7_alg».proof.Proof.HostSide

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The three arguments on core c. -/
abbrev argX (c : Dev nD) : S16384x2048.Idx → EReal := m ((c : Thread nD τ).loc main_arg0)
abbrev argA (c : Dev nD) : S2048x45.Idx → EReal := m ((c : Thread nD τ).loc main_arg1)
abbrev argB (c : Dev nD) : S45x2048.Idx → EReal := m ((c : Thread nD τ).loc main_arg2)

/-- The result: the projection of the arguments. -/
abbrev result (c : Dev nD) : S16384x2048.Idx → EReal := Cert.LowRank.proj (argX m c) (argA m c) (argB m c)

/-- The index maps, decided over the 16 points: x and the result move by one row block per point, the factors stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the projection. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S1024x2048) hz, View.ld_unit_zero (S := S2048x128) hz, View.ld_unit_zero (S := S128x2048) hz]
  obtain ⟨e00, e01, e10, e11, e20, e21, e30, e31⟩ := idx_facts t
  funext j
  show k0_pay1 (F := Ideal) (iblk m c 0 t) (iblk m c 1 t) (iblk m c 2 t) j = result m c (((cfg0.win 3).blk t).view.emb j)
  refine Cert.KernelIdeal.Pay.point_value (argX m c) (argA m c) (argB m c) (iblk m c 0 t) (iblk m c 1 t) (iblk m c 2 t)
    (fun y => ((cfg0.win 3).blk t).view.emb y) ?_ ?_ ?_ ?_ j
  · intro y l
    show V m c main_arg0 (((cfg0.win 0).blk t).view.emb (ix2 (y 0) l)) = _
    rw [V_main_arg0]
    refine congrArg (argX m c) (funext fun a => Fin.ext ?_)
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 2048 + 1 * l.val = l.val; omega
  · intro y
    show win0_3.index t (1 : Fin 2) * 2048 + 1 * (y 1).val = (y 1).val
    omega
  · rw [← Cert.KernelIdeal.HostSide.left_eq m c]
    funext z
    show V m c main_call0_v3 (((cfg0.win 1).blk t).view.emb z) = V m c main_call0_v3 z
    refine congrArg (V m c main_call0_v3) (funext fun a => Fin.ext ?_)
    match a with
    | ⟨0, _⟩ => show win0_1.index t (0 : Fin 2) * 2048 + 1 * (z 0).val = (z 0).val; omega
    | ⟨1, _⟩ => show win0_1.index t (1 : Fin 2) * 128 + 1 * (z 1).val = (z 1).val; omega
  · rw [← Cert.KernelIdeal.HostSide.right_eq m c]
    funext z
    show V m c main_call0_v7 (((cfg0.win 2).blk t).view.emb z) = V m c main_call0_v7 z
    refine congrArg (V m c main_call0_v7) (funext fun a => Fin.ext ?_)
    match a with
    | ⟨0, _⟩ => show win0_2.index t (0 : Fin 2) * 128 + 1 * (z 0).val = (z 0).val; omega
    | ⟨1, _⟩ => show win0_2.index t (1 : Fin 2) * 2048 + 1 * (z 1).val = (z 1).val; omega

/-- An index of the result array is in point t's block iff each coordinate is in the block's range on its axis. -/
theorem mem_blk (t : Fin cfg0.N) (i : S16384x2048.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v0).slice (win0_3.rect t)).set ↔ _
  rw [View.set_slice_whole, Rect.mem_set_unit]
  exact Iff.rfl

/-- Every index of the result is in the block of the point its row block names. -/
theorem cover (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 16 := N_0
  have ht : (i 0).val / 1024 < cfg0.N := by rw [hN]; omega
  obtain ⟨-, -, -, -, -, -, e30, e31⟩ := idx_facts ⟨(i 0).val / 1024, ht⟩
  have e30' : win0_3.index ⟨(i 0).val / 1024, ht⟩ (0 : Fin 2) = (i 0).val / 1024 := e30
  refine ⟨⟨(i 0).val / 1024, ht⟩, flush0_3 _, ?_⟩
  rw [mem_blk]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    omega
  | ⟨1, _⟩ =>
    show win0_3.index ⟨(i 0).val / 1024, ht⟩ (1 : Fin 2) * 2048 ≤ (i 1).val ∧ (i 1).val < win0_3.index ⟨(i 0).val / 1024, ht⟩ (1 : Fin 2) * 2048 + 2048
    omega

/-- THE RESULT ARRAY after the run is the projection of the arguments. -/
theorem final (c : Dev nD) : (dats m 0 c).arrAt 3 cfg0.N = result m c :=
  (dats m 0 c).arrAt_eq_of_cover 3 (result m c) (fun t _ => flushed_eq m c t) (cover)

/-- The run, read: the result array at the projection, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Blocks

end
-- ==== Proof.RefSide.lean ====
/-
  THE REFERENCE IS THE PROJECTION. The reference multiplies x by the [2048, 45] factor and the [16384, 45] product by the
  [45, 2048] factor. Read at an index, each product is the sum over its one contracted axis, so the result at (p, q) is
      ∑ k < 45, (∑ l < 2048, x (p, l) · a (l, k)) · b (k, q),
  the projection entry by entry: only the index functions of the two products have to be identified with (p, l), (l, k),
  (p, k) and (k, q).
-/
import proofs.«114166_g24034636988908_cont_8to1_1257_7_alg».proof.Proof.Gen.ReferenceIdeal.Read
import proofs.«114166_g24034636988908_cont_8to1_1257_7_alg».proof.Proof.Spec

noncomputable section

namespace Cert.ReferenceIdeal.RefValue

open Cert.ReferenceIdeal Cert.ReferenceIdeal.Read Idealize.ShloMosaic Idealize.ShloMosaic.ValueIdx

theorem right_of_second (i : S16384x2048.Idx) (k : Fin 45) : ridx_main_v1 i k = ix2 k (i 1) :=
  funext fun a => Fin.ext (by match a with | ⟨0, _⟩ => rfl | ⟨1, _⟩ => rfl)

theorem left_of_first (i : S16384x2048.Idx) (k : Fin 45) (l : Fin 2048) : lidx_main_v0 (lidx_main_v1 i k) l = ix2 (i 0) l :=
  funext fun a => Fin.ext (by match a with | ⟨0, _⟩ => rfl | ⟨1, _⟩ => rfl)

theorem right_of_first (i : S16384x2048.Idx) (k : Fin 45) (l : Fin 2048) : ridx_main_v0 (lidx_main_v1 i k) l = ix2 l k :=
  funext fun a => Fin.ext (by match a with | ⟨0, _⟩ => rfl | ⟨1, _⟩ => rfl)

/-- The reference's second product, over its first, is the projection of the three arguments. -/
theorem result_eq (x : S16384x2048.Idx → EReal) (a : S2048x45.Idx → EReal) (b : S45x2048.Idx → EReal) :
    val_main_v1 (F := Ideal) x a b = Cert.LowRank.proj x a b := by
  funext i
  rw [val_main_v1_apply]
  unfold Cert.LowRank.proj
  refine Finset.sum_congr rfl fun k _ => ?_
  rw [val_main_v0_apply, right_of_second]
  refine congrArg (· * b (ix2 k (i 1))) (Finset.sum_congr rfl fun l _ => ?_)
  rw [left_of_first, right_of_first]
  rfl

end Cert.ReferenceIdeal.RefValue

end
-- ==== Proof.lean ====
/- The low-rank projection out = (x · a) · b, x of shape [16384, 2048], a of shape [2048, 45], b of shape [45, 2048].

   The kernel extends a by zero columns and b by zero rows to 128, walks the 16 row blocks of x, and at each block
   multiplies it by the whole extended a and the product by the whole extended b. The reference is two matrix products.
   On the extended reals every float format change is the identity and a product with zero is zero whatever the other
   factor, so the kernel's contraction over 128 positions is the reference's over 45 (Proof/Spec.lean, no finiteness used).
   The modules: Spec (the projection and the law), ScatterPad and HostSide (the extended factors read at an index),
   Payload and Point (what one grid point stores), Blocks (the 16 blocks are the array), RefSide (the reference's two
   products are the projection). The three frames are the generated ones; nothing was rewritten when the kernel was
   idealized, so the idealization claim is trivial. -/
import proofs.«114166_g24034636988908_cont_8to1_1257_7_alg».proof.Defs
import proofs.«114166_g24034636988908_cont_8to1_1257_7_alg».proof.Proof.Gen.Kernel
import proofs.«114166_g24034636988908_cont_8to1_1257_7_alg».proof.Proof.Gen.Kernel.Skeleton
import proofs.«114166_g24034636988908_cont_8to1_1257_7_alg».proof.Proof.Gen.Kernel.Launch
import proofs.«114166_g24034636988908_cont_8to1_1257_7_alg».proof.Proof.Gen.Kernel.Points
import proofs.«114166_g24034636988908_cont_8to1_1257_7_alg».proof.Proof.Gen.Kernel.Frame
import proofs.«114166_g24034636988908_cont_8to1_1257_7_alg».proof.Proof.Gen.KernelIdeal
import proofs.«114166_g24034636988908_cont_8to1_1257_7_alg».proof.Proof.Gen.KernelIdeal.Skeleton
import proofs.«114166_g24034636988908_cont_8to1_1257_7_alg».proof.Proof.Gen.KernelIdeal.Launch
import proofs.«114166_g24034636988908_cont_8to1_1257_7_alg».proof.Proof.Gen.KernelIdeal.Points
import proofs.«114166_g24034636988908_cont_8to1_1257_7_alg».proof.Proof.Gen.KernelIdeal.Frame
import proofs.«114166_g24034636988908_cont_8to1_1257_7_alg».proof.Proof.Gen.ReferenceIdeal
import proofs.«114166_g24034636988908_cont_8to1_1257_7_alg».proof.Proof.Gen.Pre_finite_inputs
import proofs.«114166_g24034636988908_cont_8to1_1257_7_alg».proof.Proof.Gen.KernelIdeal.Value
import proofs.«114166_g24034636988908_cont_8to1_1257_7_alg».proof.Proof.Gen.ReferenceIdeal.Run
import proofs.«114166_g24034636988908_cont_8to1_1257_7_alg».proof.Proof.Gen.ReferenceIdeal.Read
import Idealize.ShloMosaic.Adequacy
import Idealize.ShloMosaic.Init

import proofs.«114166_g24034636988908_cont_8to1_1257_7_alg».proof.Proof.Blocks
import proofs.«114166_g24034636988908_cont_8to1_1257_7_alg».proof.Proof.RefSide

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end holding the projection of the (agreeing) arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
